-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S30490 : Shape := ⟨1, ![30490]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S30490 : S_.BroadcastsInDim S30490 (![] : Fin 0 → Fin S30490.rank)
  reducesTo_S30490_S_d0 : S30490.ReducesTo [0] S_

variable [Facts]

def fn_part1 {F : FTy → Type} [FloatOps F] (main_arg3 : IVec S30490 32) (main_v15 : IVec S_ 1) (main_c_5 : IVec S_ 32) : IVec S_ 1 :=
  let main_v16 : IVec S30490 32 := broadcastInDim S30490 ![] bcast_S_S30490 main_c_5
  let main_v17 : IVec S30490 1 := cmpi .sge main_arg3 main_v16
  let main_c_6 : IVec S_ 32 := constantI S_ 32 4096#32
  let main_v18 : IVec S30490 32 := broadcastInDim S30490 ![] bcast_S_S30490 main_c_6
  let main_v19 : IVec S30490 1 := cmpi .slt main_arg3 main_v18
  let main_v20 : IVec S30490 1 := andi main_v17 main_v19
  let main_c_7 : IVec S_ 1 := constantI S_ 1 1#1
  let main_v21 : IVec S_ 1 := (fun x v => Host.reduce IntOp.andi x v reducesTo_S30490_S_d0 h_S_) main_v20 main_c_7
  let main_v22 : IVec S_ 1 := andi main_v15 main_v21
  main_v22

def fn {F : FTy → Type} [FloatOps F] (main_arg0 : FVec F S8192x4096 .f32) (main_arg1 : FVec F S8192x4096 .f32) (main_arg2 : IVec S8192 32) (main_arg3 : IVec S30490 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 30490#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S8192x4096 : Shape := ⟨2, ![8192, 4096]⟩
abbrev S8192 : Shape := ⟨1, ![8192]⟩
abbrev S30490 : Shape := ⟨1, ![30490]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S16x1x128 : Shape := ⟨3, ![16, 1, 128]⟩
abbrev S512x4096 : Shape := ⟨2, ![512, 4096]⟩
abbrev S512x1 : Shape := ⟨2, ![512, 1]⟩
abbrev S1x1x128 : Shape := ⟨3, ![1, 1, 128]⟩
abbrev S512x1024 : Shape := ⟨2, ![512, 1024]⟩
abbrev S512 : Shape := ⟨1, ![512]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 39
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S30490, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S1, .i32⟩
  | .hbm, ⟨13, _⟩ => ⟨S_, .i32⟩
  | .hbm, ⟨14, _⟩ => ⟨S8192x1, .i32⟩
  | .hbm, ⟨15, _⟩ => ⟨S8192x1, .i1⟩
  | .hbm, ⟨16, _⟩ => ⟨S1x1, .i32⟩
  | .hbm, ⟨17, _⟩ => ⟨S8192x1, .i32⟩
  | .hbm, ⟨18, _⟩ => ⟨S8192x1, .i1⟩
  | .hbm, ⟨19, _⟩ => ⟨S8192x1, .i1⟩
  | .hbm, ⟨20, _⟩ => ⟨S_, .i1⟩
  | .hbm, ⟨21, _⟩ => ⟨S8192, .i1⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S16x1x128, .f32⟩
  | .hbm, ⟨28, _⟩ => ⟨S16x1x1, .f32⟩
  | .hbm, ⟨29, _⟩ => ⟨S16, .f32⟩
  | .hbm, ⟨30, _⟩ => ⟨S_, .f32⟩
  | .hbm, ⟨31, _⟩ => ⟨S_, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x1, .i32⟩
  | .local _ .vmem, ⟨5, _⟩ => ⟨S512x1, .i32⟩
  | .local _ .vmem, ⟨6, _⟩ => ⟨S1x1x128, .f32⟩
  | .local _ .vmem, ⟨7, _⟩ => ⟨S1x1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_c : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def k0_off1 (c0_i32 : BitVec 32) : Fin 2 → Nat :=
  let c0_1 : Index := 0#32
  let c1024_i32 : BitVec 32 := 1024#32
  let v3 : BitVec 32 := Scalar.muli c0_i32 c1024_i32
  let v4 : Index := Scalar.indexCast v3
  ![0, v4.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x1024 : 0 < S512x1024.numel
  iota_S512x1024_d1_w32 : S512x1024.Iotas .tc 32 [1]
  broadcasts_S512x1_S512x1024 : S512x1.Broadcasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  reducesTo_S8192_S_d0 : S8192.ReducesTo [0] S_
  gather_S30490_S8192x1_S8192_n_0_n_n_0_1_1_wf : GatherDims.WF S30490 S8192x1 S8192 [] [0] [] [0] [] 1 ![1]
  hrank0 : 0 < grid0.rank
  k0_off1_inb : ∀ (r : Fin 4), ∀ a, (k0_off1 (BitVec.ofNat 32 r.val)) a + S512x1024.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)

variable [Facts₀]

def gather_S30490_S8192x1_S8192_n_0_n_n_0_1_1 : GatherDims S30490 S8192x1 S8192 where
  offsetDims := []
  collapsedSliceDims := [0]
  operandBatchingDims := []
  startIndicesBatchingDims := []
  startIndexMap := [0]
  indexVectorDim := 1
  sliceSizes := ![1]
  wf := gather_S30490_S8192x1_S8192_n_0_n_n_0_1_1_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S30490 : Shape := ⟨1, ![30490]⟩
abbrev S_ : Shape := ⟨0, ![]⟩
abbrev S8192x1 : Shape := ⟨2, ![8192, 1]⟩
abbrev S4096 : Shape := ⟨1, ![4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S30490, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192, .i32⟩
  | .hbm, ⟨13, _⟩ => ⟨S4096, .i32⟩
  | .hbm, ⟨14, _⟩ => ⟨S1x4096, .i32⟩
  | .hbm, ⟨15, _⟩ => ⟨S8192x1, .i32⟩
  | .hbm, ⟨16, _⟩ => ⟨S8192x4096, .i32⟩
  | .hbm, ⟨17, _⟩ => ⟨S8192x4096, .i32⟩
  | .hbm, ⟨18, _⟩ => ⟨S8192x4096, .i1⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S_, .f32⟩
  | .hbm, ⟨26, _⟩ => ⟨S8192x4096, .i32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S8192x4096_S_d0_1 : S8192x4096.ReducesTo [0, 1] S_
  h_S_ : 0 < S_.numel
  natLt_1_32 : 1 < 32
  gather_S30490_S8192x1_S8192_n_0_n_n_0_1_1_wf : GatherDims.WF S30490 S8192x1 S8192 [] [0] [] [0] [] 1 ![1]

variable [Facts₀]

def gather_S30490_S8192x1_S8192_n_0_n_n_0_1_1 : GatherDims S30490 S8192x1 S8192 where
  offsetDims := []
  collapsedSliceDims := [0]
  operandBatchingDims := []
  startIndicesBatchingDims := []
  startIndexMap := [0]
  indexVectorDim := 1
  sliceSizes := ![1]
  wf := gather_S30490_S8192x1_S8192_n_0_n_n_0_1_1_wf

class Facts : Prop extends Facts₀ where

variable [Facts]
-- ==== Proof.PreFacts.lean ====
import proofs.«413548_j91164975825342_3_alg».proof.Pre_finite_inputs
import Idealize.ShloMosaic.Lib.ReduceAll
import Idealize.ShloMosaic.Lib.StableHlo.Predicate

namespace Cert.PreFacts

open Idealize.ShloMosaic

variable [Cert.Pre_finite_inputs.Facts]

/-- The shape of a scalar has exactly one index. -/
private instance subsingleton_scalar_idx : Subsingleton Cert.Pre_finite_inputs.S_.Idx :=
  ⟨fun _ _ => funext fun d => d.elim0⟩

/-- A 32-bit word that tests signed-nonnegative and signed-below a literal under 2³¹ has, read unsigned, a value
    below that literal: nonnegative read signed means the top bit is clear, so both readings agree. -/
private theorem toNat_lt_of_cmp {x : BitVec 32} (n : Nat) (hn : n < 2 ^ 31)
    (h0 : IntOp.cmpi .sge x 0#32 = 1#1) (h1 : IntOp.cmpi .slt x (BitVec.ofNat 32 n) = 1#1) : x.toNat < n := by
  rw [IntOp.cmpi_sge, show (0#32 : BitVec 32).toInt = 0 from by decide] at h0
  rw [IntOp.cmpi_slt, StableHlo.Predicate.toInt_ofNat_small n hn] at h1
  have hx : 2 * x.toNat < 2 ^ 32 := BitVec.toInt_pos_iff.1 h0
  rw [StableHlo.Predicate.toInt_eq_toNat_of_lt (by omega)] at h1
  exact_mod_cast h1

/-- Every row's series index is a position of the table: as a value it lies below 30490. -/
theorem index_lt {F : FTy → Type} [FloatOps F]
    (x0 x1 : FVec F Cert.Pre_finite_inputs.S8192x4096 .f32) (idx : IVec Cert.Pre_finite_inputs.S8192 32)
    (tab : IVec Cert.Pre_finite_inputs.S30490 32)
    (h : Cert.Pre_finite_inputs.fn (F := F) x0 x1 idx tab = fun _ => 1#1) (p : Cert.Pre_finite_inputs.S8192.Idx) :
    (idx p).toNat < 30490 := by
  have e := congrFun h (fun a => a.elim0)
  dsimp only [Cert.Pre_finite_inputs.fn, Cert.Pre_finite_inputs.fn_part1] at e
  -- the result is the conjunction of four tests; the third is the range test on the indices
  obtain ⟨e15, -⟩ := IntOp.andi_eq_one.1 e
  obtain ⟨-, e14⟩ := IntOp.andi_eq_one.1 e15
  have ep := Host.reduce_andi_all _ _ _ _ _ e14 p
  obtain ⟨ege, elt⟩ := IntOp.andi_eq_one.1 ep
  exact toNat_lt_of_cmp 30490 (by omega) ege elt

/-- Every entry of the table of starting positions is a column position: as a value it lies below 4096. -/
theorem start_lt {F : FTy → Type} [FloatOps F]
    (x0 x1 : FVec F Cert.Pre_finite_inputs.S8192x4096 .f32) (idx : IVec Cert.Pre_finite_inputs.S8192 32)
    (tab : IVec Cert.Pre_finite_inputs.S30490 32)
    (h : Cert.Pre_finite_inputs.fn (F := F) x0 x1 idx tab = fun _ => 1#1) (k : Cert.Pre_finite_inputs.S30490.Idx) :
    (tab k).toNat < 4096 := by
  have e := congrFun h (fun a => a.elim0)
  dsimp only [Cert.Pre_finite_inputs.fn, Cert.Pre_finite_inputs.fn_part1] at e
  -- the last of the four tests is the range test on the table
  obtain ⟨-, e21⟩ := IntOp.andi_eq_one.1 e
  have ek := Host.reduce_andi_all _ _ _ _ _ e21 k
  obtain ⟨ege, elt⟩ := IntOp.andi_eq_one.1 ek
  exact toNat_lt_of_cmp 4096 (by omega) ege elt

end Cert.PreFacts
-- ==== Proof.KernelPiece.lean ====
import proofs.«413548_j91164975825342_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Piece

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Columns `off` to `off + 1023` of a block of 512 rows. -/
abbrev cols (X : Vec F S512x4096 .f32) (off : Nat) (p : ∀ a, (![0, off] : Fin 2 → Nat) a + S512x1024.size a ≤ S512x4096.size a) :
    Vec F S512x1024 .f32 := View.ld X (Rect.unit (s := S512x4096) ![0, off] S512x1024.size p)

/-- What the body leaves in the output's staging buffer: its one covering store's value, over the four column
    chunks of the two float blocks and the block of row starts. -/
theorem out_A (c : Dev nD) (i : grid0.Coords) (a1 : Memref sig .tc .vmem S512x4096 .f32) (h1 : a1.IsWhole)
    (a2 : Memref sig .tc .vmem S512x4096 .f32) (h2 : a2.IsWhole) (a3 : Memref sig .tc .vmem S512x1 .i32) (h3 : a3.IsWhole)
    (a4 : Memref sig .tc .vmem S1x1x128 .f32) (h4 : a4.IsWhole)
    (x0 x1 : Vec F S512x4096 .f32) (x2 : Vec F S512x1 .i32)
    (p0 : ∀ a, (![0, 0] : Fin 2 → Nat) a + S512x1024.size a ≤ S512x4096.size a)
    (p1 : ∀ a, (![0, 1024] : Fin 2 → Nat) a + S512x1024.size a ≤ S512x4096.size a)
    (p2 : ∀ a, (![0, 2048] : Fin 2 → Nat) a + S512x1024.size a ≤ S512x4096.size a)
    (p3 : ∀ a, (![0, 3072] : Fin 2 → Nat) a + S512x1024.size a ≤ S512x4096.size a) :
    out0_A_3 c i a1 h1 a2 h2 a3 h3 a4 h4 x0 x1 x2
      = k0_pay1 (k0_pay2 x2) (k0_pay3 x2 (cols x0 0 p0) (cols x1 0 p0) (cols x0 1024 p1) (cols x1 1024 p1)) 2048#32
          (cols x0 2048 p2) (cols x1 2048 p2) (cols x0 3072 p3) (cols x1 3072 p3) := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz3]
  simp only [View.readAt_eq_ld, h1.read_unread, h2.read_unread, h3.read_unread, View.ld_unit_zero (S := S512x1) hz2]

end Cert.KernelIdeal.Piece

end
-- ==== Proof.KernelPayload.lean ====
import proofs.«413548_j91164975825342_3_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.Payload

open Cert.KernelIdeal Cert.KernelIdeal.Gen

variable {F : FTy → Type} [FloatOps F]

open Idealize.ShloMosaic.ValueIdx

/-- The squared error of row `r`, column `l` of a chunk of 1024 columns whose first column is `off`, kept where the
    column `off + l` is at or after the row's start (signed compare of 32-bit words) and replaced by zero before it. -/
def msq (off : BitVec 32) (st : IVec S512x1 32) (P A : FVec Ideal S512x1024 .f32) (r : Fin 512) (l : Fin 1024) : EReal :=
  Scalar.select (IntOp.cmpi .sge (IntOp.addi (BitVec.ofNat 32 l.val) off) (st (ix2 r 0)))
    ((P (ix2 r l) - A (ix2 r l)) * (P (ix2 r l) - A (ix2 r l))) (Ideal.ofBits .f32 0x00000000#32)

/-- One chunk's lane sum, kept as a column: at row `r` it is the sum over the chunk's 1024 columns of the masked
    squared error. -/
theorem chunk_apply (off : BitVec 32) (st : IVec S512x1 32) (P A : FVec Ideal S512x1024 .f32) (r : Fin 512)
    (hacc : (0x00000000#32 : BitVec 32) = 0x00000000#32) :
    (shapeCast S512x1 (multiReduction (F := Ideal) .add [1] S512
        (select (cmpi .sge (addi (iota .tc S512x1024 32 [1] iota_S512x1024_d1_w32) (broadcast S512x1024 off))
            (broadcastTo S512x1024 st broadcasts_S512x1_S512x1024))
          (mulf (subf P A) (subf P A)) (broadcast S512x1024 (Scalar.ofBits (F := Ideal) .f32 0x00000000#32)))
        0x00000000#32 reduces_S512x1024_S512 (.inl rfl) hacc) shapeCasts_S512_S512x1) (ix2 r 0)
      = ∑ l : Fin 1024, msq off st P A r l := by
  refine (shapeCast_apply _ shapeCasts_S512_S512x1 (ix2 r 0) (ix1 r) ?_).trans ?_
  · rw [Shape.rowMajor_val_one, Shape.rowMajor_val_two]
    show r.val = r.val * 1 + 0
    omega
  refine (Ideal.multiReduction_add_single _ 0x00000000#32 reduces_S512x1024_S512 (.inl rfl) hacc (ix1 r)).trans ?_
  refine Finset.sum_congr rfl fun l _ => ?_
  have hl : reduces_S512x1024_S512.lift (ix1 r) l = ix2 r l := by
    funext a; match a with
    | ⟨0, _⟩ => rfl
    | ⟨1, _⟩ => rfl
  rw [hl]
  show Scalar.select (IntOp.cmpi .sge (IntOp.addi (iota .tc S512x1024 32 [1] iota_S512x1024_d1_w32 (ix2 r l)) off)
      (broadcastTo S512x1024 st broadcasts_S512x1_S512x1024 (ix2 r l))) _ _ = _
  rw [iota_single_apply, broadcastTo_apply st broadcasts_S512x1_S512x1024 (ix2 r l) (ix2 r 0) (fun a => by
    match a with
    | ⟨0, _⟩ => rfl
    | ⟨1, _⟩ => rfl)]
  rfl

/-- The identity cast of the column of row starts changes nothing. -/
theorem pay2_eq (st : Vec Ideal S512x1 .i32) : k0_pay2 (F := Ideal) st = st := shapeCast_self st _

/-- After the first two chunks a row holds zero plus its two chunk sums, in that order. -/
theorem pay3_apply (st : Vec Ideal S512x1 .i32) (P0 A0 P1 A1 : Vec Ideal S512x1024 .f32) (r : Fin 512) :
    k0_pay3 (F := Ideal) st P0 A0 P1 A1 (ix2 r 0)
      = (Ideal.ofBits .f32 0x00000000#32 + ∑ l : Fin 1024, msq 0#32 st P0 A0 r l)
          + ∑ l : Fin 1024, msq 1024#32 st P1 A1 r l := by
  unfold k0_pay3
  rw [pay2_eq]
  dsimp only
  change (_ + _) + _ = _
  refine congrArg₂ (fun a b : EReal => a + b) (congrArg₂ (fun a b : EReal => a + b) rfl ?_) ?_
  · exact chunk_apply (Scalar.muli 0#32 1024#32) st P0 A0 r rfl
  · exact chunk_apply (Scalar.muli 1#32 1024#32) st P1 A1 r rfl

/-- The stored block: every lane holds the sum over the 512 rows of the row's running sum after all four chunks. -/
theorem pay1_apply (st : Vec Ideal S512x1 .i32) (acc : FVec Ideal S512x1 .f32) (P2 A2 P3 A3 : Vec Ideal S512x1024 .f32)
    (y : S1x1x128.Idx) :
    k0_pay1 (F := Ideal) st acc 2048#32 P2 A2 P3 A3 y
      = ∑ r : Fin 512, ((acc (ix2 r 0) + ∑ l : Fin 1024, msq 2048#32 st P2 A2 r l)
          + ∑ l : Fin 1024, msq 3072#32 st P3 A3 r l) := by
  unfold k0_pay1
  dsimp only
  refine (broadcastTo_apply _ broadcasts_S1x1x1_S1x1x128 y (ix3 0 0 0) (fun a => by
    match a with
    | ⟨0, _⟩ => rfl
    | ⟨1, _⟩ => rfl
    | ⟨2, _⟩ => rfl)).trans ?_
  rw [shapeCast_self]
  refine (shapeCast_apply _ shapeCasts_S1x1_S1x1x1 (ix3 0 0 0) (ix2 0 0) (by
    rw [Shape.rowMajor_val_two, Shape.rowMajor_val_three]; rfl)).trans ?_
  refine (shapeCast_apply _ shapeCasts_S1_S1x1 (ix2 0 0) (ix1 0) (by
    rw [Shape.rowMajor_val_one, Shape.rowMajor_val_two]; rfl)).trans ?_
  refine (Ideal.multiReduction_add_single _ 0x00000000#32 reduces_S512x1_S1 (.inl rfl) rfl (ix1 0)).trans ?_
  refine Finset.sum_congr rfl fun r _ => ?_
  have hr : reduces_S512x1_S1.lift (ix1 0) r = ix2 r 0 := by
    funext a; match a with
    | ⟨0, _⟩ => rfl
    | ⟨1, _⟩ => rfl
  rw [hr]
  change (_ + _) + _ = _
  refine congrArg₂ (fun a b : EReal => a + b) (congrArg₂ (fun a b : EReal => a + b) rfl ?_) ?_
  · exact chunk_apply 2048#32 st P2 A2 r rfl
  · exact chunk_apply (Scalar.muli 3#32 1024#32) st P3 A3 r rfl

end Cert.KernelIdeal.Payload

end
-- ==== Proof.KernelArray.lean ====
import proofs.«413548_j91164975825342_3_alg».proof.Proof.KernelPiece
import proofs.«413548_j91164975825342_3_alg».proof.Proof.KernelPayload

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Idealize.ShloMosaic.ValueIdx

variable (m : (ℓ : Loc nD τ sig) → Buf (Elt Ideal) ℓ) (ρ : Dev nD → PrngReg)

/-- The squared error at row `i`, column `j` of the two float arrays, kept where column `j` is at or after row `i`'s
    start (signed compare of 32-bit words) and zero before it. -/
def wsq (X0 X1 : FVec Ideal S8192x4096 .f32) (ST : IVec S8192x1 32) (i : Fin 8192) (j : Fin 4096) : EReal :=
  Scalar.select (IntOp.cmpi .sge (BitVec.ofNat 32 j.val) (ST (ix2 i 0)))
    ((X0 (ix2 i j) - X1 (ix2 i j)) * (X0 (ix2 i j) - X1 (ix2 i j))) 0

/-- Block `b`'s partial sum of a function of (row, column): over its 512 rows, each row's four chunks of 1024 columns
    added left to right. -/
def blockSum (f : Fin 8192 → Fin 4096 → EReal) (b : Fin 16) : EReal :=
  ∑ r : Fin 512,
    ((((∑ l : Fin 1024, f ⟨512 * b.val + r.val, by omega⟩ ⟨l.val, by omega⟩)
      + ∑ l : Fin 1024, f ⟨512 * b.val + r.val, by omega⟩ ⟨1024 + l.val, by omega⟩)
      + ∑ l : Fin 1024, f ⟨512 * b.val + r.val, by omega⟩ ⟨2048 + l.val, by omega⟩)
      + ∑ l : Fin 1024, f ⟨512 * b.val + r.val, by omega⟩ ⟨3072 + l.val, by omega⟩)

/-- The printed index maps, decided over the grid: at point `t` every window is on block `t` of its leading axis and
    block 0 of the others. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem lt16 (t : Fin cfg0.N) : t.val < 16 := lt_of_lt_of_eq t.isLt N_0

/-- Row `r`, column `q` of the predictions' block at point `t` is row `512 t + r` of the array. -/
theorem pred_blk (c : Dev nD) (t : Fin cfg0.N) (r : Fin 512) (q : Fin 4096) (h : 512 * t.val + r.val < 8192) :
    (iblk m c 0 t : Vec Ideal S512x4096 .f32) (ix2 r q) = V m c main_arg0 (ix2 ⟨512 * t.val + r.val, h⟩ q) := by
  obtain ⟨e0, e1, -⟩ := idx_facts t
  unfold iblk
  rw [View.read_apply]
  show V m c main_arg0 _ = V m c main_arg0 _
  congr 1
  funext a; apply Fin.ext
  match a with
  | ⟨0, _⟩ => show win0_0.index t (0 : Fin 2) * 512 + 1 * r.val = 512 * t.val + r.val; rw [e0]; omega
  | ⟨1, _⟩ => show win0_0.index t (1 : Fin 2) * 4096 + 1 * q.val = q.val; rw [e1]; omega

/-- The same for the actuals. -/
theorem act_blk (c : Dev nD) (t : Fin cfg0.N) (r : Fin 512) (q : Fin 4096) (h : 512 * t.val + r.val < 8192) :
    (iblk m c 1 t : Vec Ideal S512x4096 .f32) (ix2 r q) = V m c main_arg1 (ix2 ⟨512 * t.val + r.val, h⟩ q) := by
  obtain ⟨-, -, e0, e1, -⟩ := idx_facts t
  unfold iblk
  rw [View.read_apply]
  show V m c main_arg1 _ = V m c main_arg1 _
  congr 1
  funext a; apply Fin.ext
  match a with
  | ⟨0, _⟩ => show win0_1.index t (0 : Fin 2) * 512 + 1 * r.val = 512 * t.val + r.val; rw [e0]; omega
  | ⟨1, _⟩ => show win0_1.index t (1 : Fin 2) * 4096 + 1 * q.val = q.val; rw [e1]; omega

/-- Row `r` of the block of row starts at point `t` is row `512 t + r` of the column of starts. -/
theorem start_blk (c : Dev nD) (t : Fin cfg0.N) (r : Fin 512) (h : 512 * t.val + r.val < 8192) :
    (iblk m c 2 t : Vec Ideal S512x1 .i32) (ix2 r 0) = V m c main_v1 (ix2 ⟨512 * t.val + r.val, h⟩ 0) := by
  obtain ⟨-, -, -, -, e0, e1, -⟩ := idx_facts t
  unfold iblk
  rw [View.read_apply]
  show V m c main_v1 _ = V m c main_v1 _
  congr 1
  funext a; apply Fin.ext
  match a with
  | ⟨0, _⟩ => show win0_2.index t (0 : Fin 2) * 512 + 1 * r.val = 512 * t.val + r.val; rw [e0]; omega
  | ⟨1, _⟩ => show win0_2.index t (1 : Fin 2) * 1 + 1 * 0 = 0; rw [e1]

/-- A chunk of 1024 columns read at (r, l) is the block at column `off + l`. -/
theorem cols_apply (X : Vec Ideal S512x4096 .f32) (off : Nat)
    (p : ∀ a, (![0, off] : Fin 2 → Nat) a + S512x1024.size a ≤ S512x4096.size a) (r : Fin 512) (l : Fin 1024)
    (h : off + l.val < 4096) :
    Piece.cols X off p (ix2 r l) = X (ix2 r ⟨off + l.val, h⟩) := by
  show X _ = X _
  congr 1
  funext a; apply Fin.ext
  match a with
  | ⟨0, _⟩ => show 0 + 1 * r.val = r.val; omega
  | ⟨1, _⟩ => show off + 1 * l.val = off + l.val; omega

/-- A chunk's masked squared error is the whole arrays' at the block's row and the chunk's column: the column word
    `l + off` is the word of the column `off + l`. -/
theorem msq_eq (off : Nat) (hoff : off + 1024 ≤ 4096) (offw : BitVec 32) (hw : offw = BitVec.ofNat 32 off)
    (X0 X1 : FVec Ideal S8192x4096 .f32) (ST : IVec S8192x1 32)
    (x0 x1 : Vec Ideal S512x4096 .f32) (st : Vec Ideal S512x1 .i32) (base : Nat) (hb : base + 512 ≤ 8192)
    (h0 : ∀ (r : Fin 512) (q : Fin 4096), x0 (ix2 r q) = X0 (ix2 ⟨base + r.val, by omega⟩ q))
    (h1 : ∀ (r : Fin 512) (q : Fin 4096), x1 (ix2 r q) = X1 (ix2 ⟨base + r.val, by omega⟩ q))
    (hs : ∀ r : Fin 512, st (ix2 r 0) = ST (ix2 ⟨base + r.val, by omega⟩ 0))
    (p : ∀ a, (![0, off] : Fin 2 → Nat) a + S512x1024.size a ≤ S512x4096.size a) (r : Fin 512) (l : Fin 1024) :
    Payload.msq offw st (Piece.cols x0 off p) (Piece.cols x1 off p) r l
      = wsq X0 X1 ST ⟨base + r.val, by omega⟩ ⟨off + l.val, by omega⟩ := by
  subst hw
  unfold Payload.msq wsq
  rw [hs r, cols_apply x0 off p r l (by omega), cols_apply x1 off p r l (by omega), h0, h1, Ideal.ofBits_zero_f32]
  have e : IntOp.addi (BitVec.ofNat 32 l.val) (BitVec.ofNat 32 off) = BitVec.ofNat 32 (off + l.val) := by
    show BitVec.ofNat 32 l.val + BitVec.ofNat 32 off = _
    rw [← BitVec.ofNat_add, Nat.add_comm]
  rw [e]

/-- A chunk of 1024 columns starting at `off` lies inside the block of 4096 columns. -/
theorem p_off (off : Nat) (h : off + 1024 ≤ 4096) :
    ∀ a, (![0, off] : Fin 2 → Nat) a + S512x1024.size a ≤ S512x4096.size a := by
  intro a
  match a with
  | ⟨0, _⟩ => show 0 + 512 ≤ 512; omega
  | ⟨1, _⟩ => show off + 1024 ≤ 4096; exact h

/-- WHAT POINT `t` LEAVES in the output's staging buffer, at every lane: block `t`'s partial sum of the masked squared
    error of the arrays as the region finds them. -/
theorem outsAt_apply (c : Dev nD) (t : Fin cfg0.N) (y : S1x1x128.Idx) :
    outsAt0 m c t y = blockSum (wsq (V m c main_arg0) (V m c main_arg1) (V m c main_v1)) ⟨t.val, lt16 t⟩ := by
  have ht := lt16 t
  unfold outsAt0
  rw [Piece.out_A c (grid0.coords t) (ms0_0 t) (hs0_0 t) (ms0_1 t) (hs0_1 t) (ms0_2 t) (hs0_2 t) (ms0_3 t) (hs0_3 t)
    (iblk m c 0 t) (iblk m c 1 t) (iblk m c 2 t) (p_off 0 (by omega)) (p_off 1024 (by omega)) (p_off 2048 (by omega))
    (p_off 3072 (by omega))]
  refine (Payload.pay1_apply _ _ _ _ _ _ y).trans ?_
  unfold blockSum
  refine Finset.sum_congr rfl fun r _ => ?_
  have hr := r.isLt
  rw [Payload.pay2_eq, Payload.pay3_apply, Ideal.ofBits_zero_f32, zero_add]
  refine congrArg₂ (fun a b : EReal => a + b) (congrArg₂ (fun a b : EReal => a + b)
    (congrArg₂ (fun a b : EReal => a + b) ?_ ?_) ?_) ?_
  all_goals refine Finset.sum_congr rfl fun l _ => ?_
  · refine (msq_eq 0 (by omega) 0#32 rfl (V m c main_arg0) (V m c main_arg1) (V m c main_v1) (iblk m c 0 t) (iblk m c 1 t)
      (iblk m c 2 t) (512 * t.val) (by omega) (fun r q => pred_blk m c t r q (by have := r.isLt; omega))
      (fun r q => act_blk m c t r q (by have := r.isLt; omega)) (fun r => start_blk m c t r (by have := r.isLt; omega))
      (p_off 0 (by omega)) r l).trans ?_
    congr 1
    exact Fin.ext (Nat.zero_add _)
  · exact msq_eq 1024 (by omega) 1024#32 rfl (V m c main_arg0) (V m c main_arg1) (V m c main_v1) (iblk m c 0 t) (iblk m c 1 t)
      (iblk m c 2 t) (512 * t.val) (by omega) (fun r q => pred_blk m c t r q (by have := r.isLt; omega))
      (fun r q => act_blk m c t r q (by have := r.isLt; omega)) (fun r => start_blk m c t r (by have := r.isLt; omega))
      (p_off 1024 (by omega)) r l
  · exact msq_eq 2048 (by omega) 2048#32 rfl (V m c main_arg0) (V m c main_arg1) (V m c main_v1) (iblk m c 0 t) (iblk m c 1 t)
      (iblk m c 2 t) (512 * t.val) (by omega) (fun r q => pred_blk m c t r q (by have := r.isLt; omega))
      (fun r q => act_blk m c t r q (by have := r.isLt; omega)) (fun r => start_blk m c t r (by have := r.isLt; omega))
      (p_off 2048 (by omega)) r l
  · exact msq_eq 3072 (by omega) 3072#32 rfl (V m c main_arg0) (V m c main_arg1) (V m c main_v1) (iblk m c 0 t) (iblk m c 1 t)
      (iblk m c 2 t) (512 * t.val) (by omega) (fun r q => pred_blk m c t r q (by have := r.isLt; omega))
      (fun r q => act_blk m c t r q (by have := r.isLt; omega)) (fun r => start_blk m c t r (by have := r.isLt; omega))
      (p_off 3072 (by omega)) r l

/-- The array of partial sums: entry (b, 0, lane) is block `b`'s partial sum, the same on every lane. -/
def partials (c : Dev nD) : S16x1x128.Idx → EReal :=
  fun i => blockSum (wsq (V m c main_arg0) (V m c main_arg1) (V m c main_v1)) ⟨(i 0).val, (i 0).isLt⟩

/-- WHAT POINT `t` WRITES BACK is block `t` of the array of partial sums. -/
theorem flushed_eq (c : Dev nD) (t : Fin cfg0.N) :
    (dats m 0 c).flushed 3 t = ((cfg0.win 3).blk t).view.read (Elt Ideal) (partials m c) := by
  show (cfg0.win 3).cut (grid0.coords t) ((dats m 0 c).after 3 t) = _
  rw [after0_3]
  obtain ⟨-, -, -, -, -, -, e0, -, -⟩ := idx_facts t
  funext y
  show outsAt0 m c t y = partials m c (((cfg0.win 3).blk t).view.emb y)
  rw [outsAt_apply]
  unfold partials
  congr 1
  apply Fin.ext
  show t.val = win0_3.index t (0 : Fin 3) * 1 + 1 * (y 0).val
  have hy : (y 0).val < 1 := (y 0).isLt
  rw [e0]; omega

/-- An index of the array is in point `t`'s block iff each coordinate is in the block's range on its axis. -/
theorem mem_blk (t : Fin cfg0.N) (i : S16x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v2).slice (win0_3.rect t)).set ↔ _
  rw [View.set_slice_whole, Rect.mem_set_unit]
  exact Iff.rfl

/-- Every index of the array is in the block of the point its leading coordinate names. -/
theorem cover (i : S16x1x128.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 128 := (i 2).isLt
  obtain ⟨-, -, -, -, -, -, e0, e1, e2⟩ := idx_facts ⟨(i 0).val, lt_of_lt_of_eq hi0 N_0.symm⟩
  refine ⟨⟨(i 0).val, lt_of_lt_of_eq hi0 N_0.symm⟩, flush0_3 _, ?_⟩
  rw [mem_blk]
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 128 ≤ (i 2).val ∧ (i 2).val < win0_3.index _ (2 : Fin 3) * 128 + 128
    rw [e2]; omega

/-- THE ARRAY after the region: the partial sums. -/
theorem final (c : Dev nD) : (dats m 0 c).arrAt 3 cfg0.N = partials m c :=
  (dats m 0 c).arrAt_eq_of_cover 3 (partials m c) (fun t _ => flushed_eq m c t) (cover)

end Cert.KernelIdeal.Array

end
-- ==== Proof.KernelTail.lean ====
import proofs.«413548_j91164975825342_3_alg».proof.Proof.KernelArray
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Idealize.ShloMosaic.ValueIdx

variable (m : (ℓ : Loc nD τ sig) → Buf (Elt Ideal) ℓ) (ρ : Dev nD → PrngReg)

/-- The column of wrapped row indices: a negative index has the table length added, then the vector is laid as a column. -/
def wrapped (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 30490#32))) idx)

/-- The kernel's row starts: the table gathered at the wrapped indices, replaced by the word 2147483648 on the rows
    whose wrapped index is outside the table. -/
def kstarts (idx : IVec S8192 32) (tab : IVec S30490 32) : IVec S8192 32 :=
  select
    (Host.reduce IntOp.andi
      (andi (cmpi .sge (wrapped idx) (broadcastInDim S8192x1 ![] bcast_S_S8192x1 (constantI S_ 32 0#32)))
        (cmpi .sle (wrapped idx)
          (broadcastInDim S8192x1 ![0, 1] bcast_S1x1_S8192x1_0_1 (broadcastInDim S1x1 ![1] bcast_S1_S1x1_1 (constantI S1 32 30489#32)))))
      (constantI S_ 1 1#1) reducesTo_S8192x1_S8192_d1 h_S_)
    (Host.gather gather_S30490_S8192x1_S8192_n_0_n_n_0_1_1 tab (wrapped idx))
    (broadcastInDim S8192 ![] bcast_S_S8192 (constantI S_ 32 2147483648#32))

set_option maxHeartbeats 2000000 in
/-- The region finds the vector of row starts at the kernel's lookup of the two integer arguments. -/
theorem V_starts (c : Dev nD) :
    (V m c main_v0 : IVec S8192 32) = kstarts (m ((c : Thread nD τ).loc main_arg2)) (m ((c : Thread nD τ).loc main_arg3)) := by
  dsimp only [V, V0]
  simp only [hostOps0, hostOps0_1, List.flatten_cons, List.flatten_nil, List.append_nil, List.cons_append, List.nil_append]
  after_results
  rfl

set_option maxHeartbeats 2000000 in
/-- And the column of row starts at that vector laid as a column. -/
theorem V_startcol (c : Dev nD) :
    (V m c main_v1 : IVec S8192x1 32)
      = shapeCast S8192x1 (kstarts (m ((c : Thread nD τ).loc main_arg2)) (m ((c : Thread nD τ).loc main_arg3))) shapeCasts_S8192_S8192x1 := by
  dsimp only [V, V0]
  simp only [hostOps0, hostOps0_1, List.flatten_cons, List.flatten_nil, List.append_nil, List.cons_append, List.nil_append]
  after_results
  rfl

/-- The kernel's loss: the sum, from zero, of lane 0 of the sixteen partial sums. -/
def kloss (c : Dev nD) : FVec Ideal S_ .f32 :=
  Host.reduceAdd
    (shapeCast S16 (extractStridedSlice S16x1x1 ![0, 0, 0] (Array.partials m c) slices_S16x1x128_S16x1x1_0_0_0)
      shapeCasts_S16x1x1_S16)
    (constant S_ .f32 0x00000000#32) reducesTo_S16_S_d0 h_S_

/-- The kernel's count: the rectangle's size less the 32-bit sum of the row starts. -/
def kcount (c : Dev nD) : IVec S_ 32 :=
  subi (constantI S_ 32 33554432#32)
    (Host.reduce IntOp.addi (V m c main_v0 : IVec S8192 32) (constantI S_ 32 0#32) reducesTo_S8192_S_d0 h_S_)

/-- The kernel's result: the square root of the quotient of its loss by its count as a float. -/
def kres (c : Dev nD) : FVec Ideal S_ .f32 :=
  Host.sqrt (Host.divf (kloss m c) (sitofp .f32 (kcount m c)))

/-- The host lines after the region leave the result buffer at that value. -/
theorem tail_eq (c : Dev nD) :
    Pipeline.afterTail₀ cfgs (dats m) 0 (V0 m) [hostOps1] c main_v10 = kres m c := by
  unfold Pipeline.afterTail₀
  show StableHlo.after hostOps1 _ (Proc.devRef .tc main_v10) = _
  after_results
  have harr : Pipeline.withArrays (cfgs 0).spec c (V0 m c) (fun w => (dats m 0 c).arrAt w (cfgs 0).N) (Proc.devRef .tc main_v2)
      = Array.partials m c :=
    (Pipeline.withArrays_arr spec0 launch0.win.arr_inj c _ _ 3).trans (Array.final m c)
  rw [harr, Pipeline.withArrays_of_ne _ c (V0 m c) _ main_v0 (by exact (by decide : ∀ w, Pipeline.arrRef spec0 w ≠ main_v0))]
  rfl

/-- THE KERNEL'S RUN, read: the result buffer at `kres`, the four arguments unchanged. -/
theorem run : θ_run defs (onTc (τ := τ) (main (F := Ideal))) ⟨m, fun _ => 0, ρ⟩ fun r => ∀ c : Dev nD,
      r.2.mem ((c.tc : Thread nD τ).loc main_v10) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tail

end
-- ==== Proof.TakeFacts.lean ====
import proofs.«413548_j91164975825342_3_alg».proof.Proof.Gen.KernelIdeal
import Idealize.ShloMosaic.Lib.StableHlo.Predicate
import Idealize.ShloMosaic.Lib.ValueIdx

noncomputable section

namespace Cert.KernelIdeal.Take

open Idealize.ShloMosaic Cert.KernelIdeal Cert.KernelIdeal.Facts₀

/-- The column of wrapped row indices: a negative index has the table length added, then the vector is laid as a column. -/
def wrapCol (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 30490#32))) idx)

/-- A left fold by `and` from 1 over `i1` words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-- With every row index a position of the table, the in-range test passes on every row and the lookup with its
    out-of-range fill is the plain gather. -/
theorem take_eq (idx : IVec S8192 32) (tab : IVec S30490 32) (hidx : ∀ p, (idx p).toNat < 30490) :
    select
        (Host.reduce IntOp.andi
          (andi (cmpi .sge (wrapCol idx) (broadcastInDim S8192x1 ![] bcast_S_S8192x1 (constantI S_ 32 0#32)))
            (cmpi .sle (wrapCol idx)
              (broadcastInDim S8192x1 ![0, 1] bcast_S1x1_S8192x1_0_1 (broadcastInDim S1x1 ![1] bcast_S1_S1x1_1 (constantI S1 32 30489#32)))))
          (constantI S_ 1 1#1) reducesTo_S8192x1_S8192_d1 h_S_)
        (Host.gather gather_S30490_S8192x1_S8192_n_0_n_n_0_1_1 tab (wrapCol idx))
        (broadcastInDim S8192 ![] bcast_S_S8192 (constantI S_ 32 2147483648#32))
      = Host.gather gather_S30490_S8192x1_S8192_n_0_n_n_0_1_1 tab (wrapCol idx) := by
  funext p
  -- every element of the column of wrapped indices is one of the row indices, unchanged: a value below 30490
  have hW : ∀ i, (wrapCol idx i).toNat < 30490 := by
    intro i
    unfold wrapCol
    simp only [broadcastInDim]
    generalize (fun a : Fin S8192.rank => _ : S8192.Idx) = q
    have hq := hidx q
    have hlt : ¬ IntOp.cmpi .slt (idx q) 0#32 = 1#1 := by
      rw [StableHlo.Predicate.slt_iff_toNat (by omega) (by decide)]
      exact Nat.not_lt_zero _
    show (Scalar.select (IntOp.cmpi .slt (idx q) 0#32) (IntOp.addi (idx q) 30490#32) (idx q)).toNat < 30490
    rw [show Scalar.select (IntOp.cmpi .slt (idx q) 0#32) (IntOp.addi (idx q) 30490#32) (idx q) = idx q from if_neg hlt]
    exact hq
  -- so both compares hold at every element of the column
  have hX : ∀ i, andi (cmpi .sge (wrapCol idx) (broadcastInDim S8192x1 ![] bcast_S_S8192x1 (constantI S_ 32 0#32)))
      (cmpi .sle (wrapCol idx)
        (broadcastInDim S8192x1 ![0, 1] bcast_S1x1_S8192x1_0_1 (broadcastInDim S1x1 ![1] bcast_S1_S1x1_1 (constantI S1 32 30489#32)))) i
      = 1#1 := by
    intro i
    have hi := hW i
    show IntOp.andi (IntOp.cmpi .sge (wrapCol idx i) 0#32) (IntOp.cmpi .sle (wrapCol idx i) 30489#32) = 1#1
    rw [IntOp.andi_eq_one]
    exact ⟨(StableHlo.Predicate.sge_iff_toNat (by omega) (by decide)).2 (Nat.zero_le _),
      (StableHlo.Predicate.sle_iff_toNat (by omega) (by decide)).2 (by show _ ≤ 30489; omega)⟩
  -- and the reduction by "and" from 1 over ones is 1
  have hc : Host.reduce IntOp.andi
      (andi (cmpi .sge (wrapCol idx) (broadcastInDim S8192x1 ![] bcast_S_S8192x1 (constantI S_ 32 0#32)))
        (cmpi .sle (wrapCol idx)
          (broadcastInDim S8192x1 ![0, 1] bcast_S1x1_S8192x1_0_1 (broadcastInDim S1x1 ![1] bcast_S1_S1x1_1 (constantI S1 32 30489#32)))))
      (constantI S_ 1 1#1) reducesTo_S8192x1_S8192_d1 h_S_ p = 1#1 := by
    rw [Host.reduce_eq_foldl]
    exact foldl_andi_ones _ _ (fun i _ => hX i)
  rw [ValueIdx.select_apply, hc]
  exact ValueIdx.select_one _ _

/-- A gathered entry is an entry of the table: a bound on every table entry bounds it. -/
theorem gather_lt (col : IVec S8192x1 32) (tab : IVec S30490 32) (htab : ∀ k, (tab k).toNat < 4096) (p : S8192.Idx) :
    (Host.gather gather_S30490_S8192x1_S8192_n_0_n_n_0_1_1 tab col p).toNat < 4096 := by
  exact htab _

end Cert.KernelIdeal.Take

end
-- ==== Proof.Counting.lean ====
import Idealize.ShloMosaic.Lib.StableHlo.Predicate
import Idealize.ShloMosaic.Lib.ValueIdx
import Mathlib.Algebra.BigOperators.Fin
import Mathlib.Data.EReal.Basic
import Mathlib.Logic.Equiv.Fin.Basic
import Mathlib.Order.Interval.Finset.Nat

namespace Cert.Counting

open Idealize.ShloMosaic Idealize.ShloMosaic.ValueIdx
open Idealize.ShloMosaic.StableHlo

/-! ## Auxiliary facts: sums over index sets, the size of a tail, a range cut into equal blocks -/

/-- A rank-1 index set is the range of its one coordinate … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Among the numbers below n, those at or above s number n - s. -/
theorem count_ge (n s : ℕ) : (∑ q : Fin n, if s ≤ q.val then 1 else 0) = n - s := by
  rw [Fin.sum_univ_eq_sum_range (fun q => if s ≤ q then 1 else 0) n, ← Finset.card_filter]
  have h : (Finset.range n).filter (fun q => s ≤ q) = Finset.Ico s n := by
    ext q
    simp only [Finset.mem_filter, Finset.mem_range, Finset.mem_Ico]
    omega
  rw [h, Nat.card_Ico]

/-- Position r of block b, in a range of N = m · n positions cut into m blocks of n, is a position of the range. -/
theorem block_lt {m n N : ℕ} (h : m * n = N) (b : Fin m) (r : Fin n) : n * b.val + r.val < N := by
  have hb : b.val + 1 ≤ m := b.isLt
  have hr := r.isLt
  calc n * b.val + r.val < n * b.val + n := by omega
    _ = (b.val + 1) * n := by ring
    _ ≤ m * n := Nat.mul_le_mul_right n hb
    _ = N := h

/-- A sum over N = m · n positions, taken block by block: m blocks of n, position n · b + r being position r of block b. -/
theorem sum_blocks {M : Type*} [AddCommMonoid M] (m n N : ℕ) (h : m * n = N) (g : Fin N → M) :
    ∑ a, g a = ∑ b : Fin m, ∑ r : Fin n, g ⟨n * b.val + r.val, block_lt h b r⟩ := by
  subst h
  rw [← Equiv.sum_comp finProdFinEquiv g, Fintype.sum_prod_type]
  refine Finset.sum_congr rfl fun b _ => Finset.sum_congr rfl fun r _ => congrArg g (Fin.ext ?_)
  rw [finProdFinEquiv_apply_val]
  exact Nat.add_comm _ _

/-- A row of 4096 entries is its four chunks of 1024, added left to right. -/
theorem row_chunks {M : Type*} [AddCommMonoid M] (h : Fin 4096 → M) :
    ∑ q, h q = (((∑ l : Fin 1024, h ⟨l.val, by omega⟩) + ∑ l : Fin 1024, h ⟨1024 + l.val, by omega⟩)
        + ∑ l : Fin 1024, h ⟨2048 + l.val, by omega⟩) + ∑ l : Fin 1024, h ⟨3072 + l.val, by omega⟩ := by
  rw [sum_blocks 4 1024 4096 rfl h, Fin.sum_univ_four]
  refine congrArg₂ (· + ·) (congrArg₂ (· + ·) (congrArg₂ (· + ·) ?_ ?_) ?_) ?_ <;>
    refine Finset.sum_congr rfl fun l _ => congrArg h (Fin.ext ?_)
  · show 1024 * 0 + l.val = l.val
    omega
  · show 1024 * 1 + l.val = 1024 + l.val
    omega
  · show 1024 * 2 + l.val = 2048 + l.val
    omega
  · show 1024 * 3 + l.val = 3072 + l.val
    omega

/-! ## The two facts -/

/-- The count of the columns at or after each row's start, summed over the rows with 32-bit wrap-around, is the
    rectangle's size less the sum of the starts. -/
theorem count_eq (st : (⟨1, ![8192]⟩ : Shape).Idx → BitVec 32) (hst : ∀ p, (st p).toNat < 4096) :
    (Finset.univ : Finset (⟨2, ![8192, 4096]⟩ : Shape).Idx).fold IntOp.addi 0#32
        (fun i => (IntOp.cmpi .sge (BitVec.ofNat 32 (i 1).val) (st (ix1 (i 0)))).setWidth 32)
      = IntOp.subi 33554432#32 ((Finset.univ : Finset (⟨1, ![8192]⟩ : Shape).Idx).fold IntOp.addi 0#32 st) := by
  classical
  -- one widened bit: column b of row a counts 1 exactly when the row's start is at most b
  have hbit : ∀ (a : Fin 8192) (b : Fin 4096),
      ((IntOp.cmpi .sge (BitVec.ofNat 32 b.val) (st (ix1 a))).setWidth 32).toNat
        = if (st (ix1 a)).toNat ≤ b.val then 1 else 0 := by
    intro a b
    rw [Predicate.toNat_setWidth_bit]
    have hb := b.isLt
    have hs := hst (ix1 a)
    have hiff := Predicate.sge_iff_toNat (a := BitVec.ofNat 32 b.val) (b := st (ix1 a))
      (by rw [BitVec.toNat_ofNat]; omega) (by omega)
    rw [BitVec.toNat_ofNat, Nat.mod_eq_of_lt (by omega)] at hiff
    exact if_congr hiff rfl rfl
  -- the values of the bits, summed: row a contributes 4096 less its start
  have hsumL : ∑ i : (⟨2, ![8192, 4096]⟩ : Shape).Idx,
      ((IntOp.cmpi .sge (BitVec.ofNat 32 (i 1).val) (st (ix1 (i 0)))).setWidth 32).toNat
        = ∑ a : Fin 8192, (4096 - (st (ix1 a)).toNat) := by
    rw [sum_idx2]
    refine Finset.sum_congr rfl fun a _ => ?_
    rw [← count_ge 4096 (st (ix1 a)).toNat]
    exact Finset.sum_congr rfl fun b _ => hbit a b
  have hsumR : ∑ j : (⟨1, ![8192]⟩ : Shape).Idx, (st j).toNat = ∑ a : Fin 8192, (st (ix1 a)).toNat :=
    sum_idx1 _
  -- the two sums together are the rectangle's size, so neither wraps
  have htot : ∑ a : Fin 8192, (4096 - (st (ix1 a)).toNat) + ∑ a : Fin 8192, (st (ix1 a)).toNat = 33554432 := by
    rw [← Finset.sum_add_distrib]
    have h1 : ∀ a : Fin 8192, 4096 - (st (ix1 a)).toNat + (st (ix1 a)).toNat = 4096 := fun a => by
      have := hst (ix1 a); omega
    simp only [h1, Finset.sum_const, Finset.card_univ, Fintype.card_fin, smul_eq_mul]
  have hL := Predicate.toNat_fold_addi (Finset.univ : Finset (⟨2, ![8192, 4096]⟩ : Shape).Idx)
    (fun i => (IntOp.cmpi .sge (BitVec.ofNat 32 (i 1).val) (st (ix1 (i 0)))).setWidth 32) (by rw [hsumL]; omega)
  have hR := Predicate.toNat_fold_addi (Finset.univ : Finset (⟨1, ![8192]⟩ : Shape).Idx) st (by rw [hsumR]; omega)
  apply BitVec.eq_of_toNat_eq
  rw [hL, hsumL]
  show _ = (33554432#32 - Finset.fold IntOp.addi 0#32 st Finset.univ).toNat
  rw [BitVec.toNat_sub, hR, hsumR, BitVec.toNat_ofNat]
  omega

/-- Sixteen blocks of 512 rows, each row's four chunks of 1024 columns added left to right, sum to the whole rectangle. -/
theorem tiled_sum_eq (f : Fin 8192 → Fin 4096 → EReal) :
    ∑ b : Fin 16, ∑ r : Fin 512,
      ((((∑ l : Fin 1024, f ⟨512 * b.val + r.val, by omega⟩ ⟨l.val, by omega⟩)
        + ∑ l : Fin 1024, f ⟨512 * b.val + r.val, by omega⟩ ⟨1024 + l.val, by omega⟩)
        + ∑ l : Fin 1024, f ⟨512 * b.val + r.val, by omega⟩ ⟨2048 + l.val, by omega⟩)
        + ∑ l : Fin 1024, f ⟨512 * b.val + r.val, by omega⟩ ⟨3072 + l.val, by omega⟩)
      = ∑ i : (⟨2, ![8192, 4096]⟩ : Shape).Idx, f (i 0) (i 1) := by
  rw [sum_idx2 (fun i : (⟨2, ![8192, 4096]⟩ : Shape).Idx => f (i 0) (i 1))]
  show _ = ∑ a : Fin 8192, ∑ c : Fin 4096, f a c
  rw [sum_blocks 16 512 8192 rfl (fun a : Fin 8192 => ∑ c : Fin 4096, f a c)]
  exact Finset.sum_congr rfl fun b _ => Finset.sum_congr rfl fun r _ => (row_chunks (f ⟨512 * b.val + r.val, block_lt rfl b r⟩)).symm

end Cert.Counting
-- ==== Proof.RefStages.lean ====
import proofs.«413548_j91164975825342_3_alg».proof.Proof.Gen.ReferenceIdeal.Read
import Idealize.ShloMosaic.Lib.ValueIdx
import Idealize.ShloMosaic.PureOps.Ideal.Laws

noncomputable section

namespace Cert.ReferenceIdeal.Stages

open Idealize.ShloMosaic Idealize.ShloMosaic.ValueIdx Cert.ReferenceIdeal Cert.ReferenceIdeal.Read

/-- The reference's mask at (row, column): the column's number compared, signed, with the row's gathered start. The
    column iota is read through its two broadcasts at the column coordinate, the starts through theirs at the row
    coordinate. -/
theorem mask_apply (x2 : IVec S8192 32) (x3 : IVec S30490 32) (j : S8192x4096.Idx) :
    val_main_v12 (F := Ideal) x2 x3 j
      = IntOp.cmpi .sge (BitVec.ofNat 32 (j 1).val) (val_main_v6 (F := Ideal) x2 x3 (ix1 (j 0))) := by
  have hrow : idx_main_v9 (idx_main_v11 j) = ix1 (j 0) := by
    funext a
    match a with
    | ⟨0, _⟩ => rfl
  rw [val_main_v12_apply, val_main_v10_apply, val_main_v8_apply, val_main_v7_apply, val_main_v11_apply,
    val_main_v9_apply, hrow]
  rfl

/-- The reference's loss: the sum over every (row, column) of the squared error where the column is at or after the
    row's gathered start, zero elsewhere. -/
theorem loss_apply (x0 x1 : FVec Ideal S8192x4096 .f32) (x2 : IVec S8192 32) (x3 : IVec S30490 32) (i : S_.Idx) :
    val_main_v16 (F := Ideal) x0 x1 x2 x3 i
      = ∑ j : S8192x4096.Idx,
          Scalar.select (IntOp.cmpi .sge (BitVec.ofNat 32 (j 1).val) (val_main_v6 (F := Ideal) x2 x3 (ix1 (j 0))))
            ((x0 j - x1 j) * (x0 j - x1 j)) (0 : EReal) := by
  rw [val_main_v16_apply, val_main_cst_1_apply]
  show Ideal.ofBits .f32 0x00000000#32 + _ = _
  rw [Ideal.ofBits_zero_f32, zero_add]
  refine Finset.sum_congr rfl fun j _ => ?_
  rw [val_main_v15_apply, mask_apply, val_main_call0_v0_apply, val_main_cst_apply]
  show Scalar.select _ ((x0 j - x1 j) * (x0 j - x1 j)) (Ideal.ofBits .f32 0x00000000#32) = _
  rw [Ideal.ofBits_zero_f32]

/-- The reference's count: the 32-bit fold, over every (row, column), of the widened bit "column at or after the row's
    gathered start". -/
theorem count_apply (x2 : IVec S8192 32) (x3 : IVec S30490 32) (i : S_.Idx) :
    val_main_v18 (F := Ideal) x2 x3 i
      = (Finset.univ : Finset S8192x4096.Idx).fold IntOp.addi 0#32
          (fun j => (IntOp.cmpi .sge (BitVec.ofNat 32 (j 1).val) (val_main_v6 (F := Ideal) x2 x3 (ix1 (j 0)))).setWidth 32) := by
  unfold val_main_v18
  rw [Host.reduce_eq_fold, Finset.filter_true_of_mem (fun k _ => funext fun a => a.elim0)]
  refine Finset.fold_congr fun j _ => ?_
  rw [val_main_v17_apply, mask_apply]

end Cert.ReferenceIdeal.Stages

end
-- ==== Proof.Bridge.lean ====
import proofs.«413548_j91164975825342_3_alg».proof.Proof.KernelTail
import proofs.«413548_j91164975825342_3_alg».proof.Proof.TakeFacts
import proofs.«413548_j91164975825342_3_alg».proof.Proof.Counting
import proofs.«413548_j91164975825342_3_alg».proof.Proof.RefStages

set_option maxRecDepth 16384

noncomputable section

open Idealize.ShloMosaic Idealize.ShloMosaic.TcCoe Idealize.SL.Sem Idealize.ShloMosaic.ValueIdx

namespace Cert.Bridge

open Cert.KernelIdeal Cert.KernelIdeal.Gen

variable (m : (ℓ : Loc nD τ sig) → Buf (Elt Ideal) ℓ)

/-- The four arguments on core `c`, at their literal types. -/
abbrev a0 (c : Dev nD) : FVec Ideal S8192x4096 .f32 := m ((c : Thread nD τ).loc main_arg0)
abbrev a1 (c : Dev nD) : FVec Ideal S8192x4096 .f32 := m ((c : Thread nD τ).loc main_arg1)
abbrev a2 (c : Dev nD) : IVec S8192 32 := m ((c : Thread nD τ).loc main_arg2)
abbrev a3 (c : Dev nD) : IVec S30490 32 := m ((c : Thread nD τ).loc main_arg3)

/-- The gathered row starts: the table at the wrapped row indices. -/
abbrev gstarts (x2 : IVec S8192 32) (x3 : IVec S30490 32) : IVec S8192 32 :=
  Host.gather gather_S30490_S8192x1_S8192_n_0_n_n_0_1_1 x3 (Take.wrapCol x2)

/-- The reference gathers the same entries: its wrapped indices and its gather are the kernel's, term for term. -/
theorem ref_starts (x2 : IVec S8192 32) (x3 : IVec S30490 32) :
    Cert.ReferenceIdeal.Read.val_main_v6 (F := Ideal) x2 x3 = gstarts x2 x3 := rfl

/-- With every row index inside the table the kernel's starts are the gathered ones. -/
theorem kstarts_eq (x2 : IVec S8192 32) (x3 : IVec S30490 32) (hidx : ∀ p, (x2 p).toNat < 30490) :
    Tail.kstarts x2 x3 = gstarts x2 x3 :=
  Take.take_eq x2 x3 hidx

/-- The masked squared error at (row, column) of the arguments under a vector of row starts. -/
def sqAll (x0 x1 : FVec Ideal S8192x4096 .f32) (st : IVec S8192 32) (p : Fin 8192) (q : Fin 4096) : EReal :=
  Scalar.select (IntOp.cmpi .sge (BitVec.ofNat 32 q.val) (st (ix1 p)))
    ((x0 (ix2 p q) - x1 (ix2 p q)) * (x0 (ix2 p q) - x1 (ix2 p q))) 0

/-- THE COUNT: the rectangle's size less the sum of the starts is the number of kept entries, each row keeping
    4096 less its start of them, the starts being column positions. -/
theorem count_bridge (c : Dev nD) (hidx : ∀ p, (a2 m c p).toNat < 30490) (htab : ∀ k, (a3 m c k).toNat < 4096) (i : S_.Idx) :
    Tail.kcount m c i = Cert.ReferenceIdeal.Read.val_main_v18 (F := Ideal) (a2 m c) (a3 m c) i := by
  rw [Cert.ReferenceIdeal.Stages.count_apply, ref_starts]
  unfold Tail.kcount
  rw [Tail.V_starts, kstarts_eq _ _ hidx]
  show IntOp.subi 33554432#32 (Host.reduce IntOp.addi (gstarts (a2 m c) (a3 m c)) (constantI S_ 32 0#32) reducesTo_S8192_S_d0 h_S_ i) = _
  rw [Host.reduce_eq_fold, Finset.filter_true_of_mem (fun j _ => funext fun a => a.elim0)]
  exact (Cert.Counting.count_eq (gstarts (a2 m c) (a3 m c)) (fun p => Take.gather_lt _ (a3 m c) htab p)).symm

/-- THE LOSS: the sixteen partial sums add up to the sum over the whole rectangle. -/
theorem loss_bridge (c : Dev nD) (hidx : ∀ p, (a2 m c p).toNat < 30490) (i : S_.Idx) :
    Tail.kloss m c i = Cert.ReferenceIdeal.Read.val_main_v16 (F := Ideal) (a0 m c) (a1 m c) (a2 m c) (a3 m c) i := by
  rw [Cert.ReferenceIdeal.Stages.loss_apply, ref_starts]
  have hw : Array.wsq (V m c main_arg0) (V m c main_arg1) (V m c main_v1)
      = sqAll (a0 m c) (a1 m c) (gstarts (a2 m c) (a3 m c)) := by
    funext p q
    unfold Array.wsq sqAll
    rw [V_main_arg0, V_main_arg1, Tail.V_startcol,
      shapeCast_apply _ shapeCasts_S8192_S8192x1 (ix2 p 0) (ix1 p) (by
        rw [Shape.rowMajor_val_one, Shape.rowMajor_val_two]; show p.val = p.val * 1 + 0; omega),
      kstarts_eq _ _ hidx]
  have hsum : ∀ X : FVec Ideal S16 .f32,
      Host.reduceAdd X (constant (F := Ideal) S_ .f32 0x00000000#32) reducesTo_S16_S_d0 h_S_ i
        = Ideal.ofBits .f32 0x00000000#32 + ∑ k : S16.Idx, X k := by
    intro X
    simp only [Host.reduceAdd, Ideal.hostReduceAdd_def]
    exact Ideal.hostReduceAdd_total reducesTo_S16_S_d0 (fun b => b.elim0) X _ i
  calc Tail.kloss m c i
      = ∑ b : Fin 16, Array.blockSum (sqAll (a0 m c) (a1 m c) (gstarts (a2 m c) (a3 m c))) b := by
        unfold Tail.kloss
        rw [hsum, Ideal.ofBits_zero_f32, zero_add, Cert.Counting.sum_idx1]
        refine Finset.sum_congr rfl fun b _ => ?_
        refine (shapeCast_apply _ shapeCasts_S16x1x1_S16 (ix1 b) (ix3 b 0 0) (by
          rw [Shape.rowMajor_val_one, Shape.rowMajor_val_three]; show (b.val * 1 + 0) * 1 + 0 = b.val; omega)).trans ?_
        show Array.partials m c _ = _
        unfold Array.partials
        rw [hw]
        congr 1
        apply Fin.ext
        show 0 + b.val = b.val
        omega
    _ = ∑ j : S8192x4096.Idx, sqAll (a0 m c) (a1 m c) (gstarts (a2 m c) (a3 m c)) (j 0) (j 1) := by
        unfold Array.blockSum
        exact Cert.Counting.tiled_sum_eq _
    _ = _ := by
        refine Finset.sum_congr rfl fun j _ => ?_
        unfold sqAll
        have e : (ix2 (j 0) (j 1) : S8192x4096.Idx) = j := (eq_ix2 j).symm
        exact congrArg (fun t : S8192x4096.Idx =>
          Scalar.select (IntOp.cmpi .sge (BitVec.ofNat 32 (j 1).val) (gstarts (a2 m c) (a3 m c) (ix1 (j 0))))
            ((a0 m c t - a1 m c t) * (a0 m c t - a1 m c t)) (0 : EReal)) e

/-- THE RESULT: under the two ranges the kernel's value is the reference's stage of the same arguments. -/
theorem result_eq (c : Dev nD) (hidx : ∀ p, (a2 m c p).toNat < 30490) (htab : ∀ k, (a3 m c k).toNat < 4096) :
    Tail.kres m c = Cert.ReferenceIdeal.Read.val_main_v21 (F := Ideal) (a0 m c) (a1 m c) (a2 m c) (a3 m c) := by
  funext i
  rw [Cert.ReferenceIdeal.Read.val_main_v21_apply, Cert.ReferenceIdeal.Read.val_main_v20_apply,
    Cert.ReferenceIdeal.Read.val_main_v19_apply, ← loss_bridge m c hidx i, ← count_bridge m c hidx htab i]
  rfl

end Cert.Bridge

end
-- ==== Proof.lean ====
/-
  The masked root-mean-square error, tiled against plain jnp, over the extended reals.

  Both programs look up a start column for every one of the 8192 rows — the table of 30490 starting positions gathered
  at the row's series index, a negative index first wrapped by the table's length — and keep the squared error
  (p − a)² of the 8192 × 4096 rectangle only at columns at or after the row's start. Both return
  sqrt(loss / count), loss the sum of the kept squared errors and count the number of kept entries as a float.

  The kernel tiles the loss: sixteen grid points of 512 rows, each row's four chunks of 1024 columns summed and
  added left to right from zero, the 512 row totals summed, the total broadcast over 128 lanes; the host adds lane 0
  of the sixteen partial sums. Extended-real addition is commutative and associative, so this is the sum over the
  whole rectangle in another grouping — no finiteness is used.

  The kernel computes the count as 8192 · 4096 − Σ starts in 32-bit arithmetic, the reference as the 32-bit sum of
  the widened mask. A row with start s in [0, 4096] keeps 4096 − s entries, so the two agree when every gathered
  start is a column position; the statement's precondition says every table entry is one (0 ≤ entry < 4096), and a
  gathered entry is a table entry. The kernel's lookup also replaces the start of a row whose wrapped index falls
  outside the table by the most negative word, where the reference's gather clamps; the precondition's
  0 ≤ index < 30490 makes that test pass on every row, so the two lookups agree.

  Modules: PreFacts (the two ranges read back from the precondition), TakeFacts (the lookup), KernelPiece,
  KernelPayload, KernelArray, KernelTail (the kernel's run read as a value), Counting (the count identity and the
  regrouping of the tiled sum), RefStages (the reference's loss and count stages), Bridge (the two values are equal).
-/
import proofs.«413548_j91164975825342_3_alg».proof.Defs
import proofs.«413548_j91164975825342_3_alg».proof.Proof.Gen.Kernel
import proofs.«413548_j91164975825342_3_alg».proof.Proof.Gen.Kernel.Frame
import proofs.«413548_j91164975825342_3_alg».proof.Proof.Gen.KernelIdeal
import proofs.«413548_j91164975825342_3_alg».proof.Proof.Gen.KernelIdeal.Frame
import proofs.«413548_j91164975825342_3_alg».proof.Proof.Gen.ReferenceIdeal
import proofs.«413548_j91164975825342_3_alg».proof.Proof.Gen.ReferenceIdeal.Run
import proofs.«413548_j91164975825342_3_alg».proof.Proof.Gen.ReferenceIdeal.Read
import proofs.«413548_j91164975825342_3_alg».proof.Proof.Gen.Pre_finite_inputs
import proofs.«413548_j91164975825342_3_alg».proof.Proof.PreFacts
import proofs.«413548_j91164975825342_3_alg».proof.Proof.Bridge
import Idealize.ShloMosaic.Adequacy
import Idealize.ShloMosaic.Init

noncomputable section

namespace Cert.Proof

open Idealize.ShloMosaic Idealize.SL.Sem

/-- The kernel as printed runs and leaves its arguments: its frame is proved for every memory. -/
theorem frame_k : Cert.frame_Kernel := fun m ρ _ => Cert.Kernel.Gen.frame m ρ

/-- The same for the kernel read at the extended reals. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition both programs end with the same value:
    the kernel's run ends at its closed value, the reference's at its last stage, and under the two integer ranges the
    precondition states the two are one number. -/
theorem algebraic : Cert.algebraic_KernelIdeal_ReferenceIdeal := by
  intro m ρ m' ρ' hpre hagree
  refine ⟨fun c => Cert.KernelIdeal.Tail.kres m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  exact (Cert.Bridge.result_eq m c (fun p => Cert.PreFacts.index_lt _ _ _ _ (hpre c) p)
    (fun k => Cert.PreFacts.start_lt _ _ _ _ (hpre c) k)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
